-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S4096x2048 : Shape := ⟨2, ![4096, 2048]⟩
abbrev S4x2048x2048 : Shape := ⟨3, ![4, 2048, 2048]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4x2048x2048 : S_.BroadcastsInDim S4x2048x2048 (![] : Fin 0 → Fin S4x2048x2048.rank)
  reducesTo_S4x2048x2048_S_d0_1_2 : S4x2048x2048.ReducesTo [0, 1, 2] S_

variable [Facts]

def fn_part1 {F : FTy → Type} [FloatOps F] (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  main_v18

def fn {F : FTy → Type} [FloatOps F] (main_arg0 : FVec F S2x4096x2048 .f32) (main_arg1 : FVec F S4096x2048 .f32) (main_arg2 : FVec F S4x2048x2048 .f32) (main_arg3 : FVec F S4x2048x2048 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4x2048x2048 .f32 := Host.absf main_arg2
  let main_cst_2 : FVec F S_ .f32 := constant S_ .f32 0x7F800000#32
  let main_v10 : FVec F S4x2048x2048 .f32 := broadcastInDim S4x2048x2048 ![] bcast_S_S4x2048x2048 main_cst_2
  let main_v11 : IVec S4x2048x2048 1 := cmpf .olt main_v9 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_v13 main_v16
-- ==== Kernel.lean ====
abbrev S2x4096x2048 : Shape := ⟨3, ![2, 4096, 2048]⟩
abbrev S4096x2048 : Shape := ⟨2, ![4096, 2048]⟩
abbrev S4x2048x2048 : Shape := ⟨3, ![4, 2048, 2048]⟩
abbrev S1x4096x2048 : Shape := ⟨3, ![1, 4096, 2048]⟩
abbrev S4x4096x2048 : Shape := ⟨3, ![4, 4096, 2048]⟩
abbrev S256x2048 : Shape := ⟨2, ![256, 2048]⟩
abbrev S1x2048x2048 : Shape := ⟨3, ![1, 2048, 2048]⟩
abbrev S1x256x2048 : Shape := ⟨3, ![1, 256, 2048]⟩
abbrev S2048x2048 : Shape := ⟨2, ![2048, 2048]⟩
abbrev S4x256x2048 : Shape := ⟨3, ![4, 256, 2048]⟩

abbrev nBuf : Space → Nat
  | .hbm => 18
  | .vmem => 18
  | .smem => 0
  | _ => 0

abbrev bufTy : (tb : Table) → Fin (tcTables nBuf tb) → BufTy
  | .hbm, ⟨0, _⟩ => ⟨S2x4096x2048, .f32⟩
  | .hbm, ⟨1, _⟩ => ⟨S4096x2048, .f32⟩
  | .hbm, ⟨2, _⟩ => ⟨S4x2048x2048, .f32⟩
  | .hbm, ⟨3, _⟩ => ⟨S4x2048x2048, .f32⟩
  | .hbm, ⟨4, _⟩ => ⟨S1x4096x2048, .f32⟩
  | .hbm, ⟨5, _⟩ => ⟨S4096x2048, .f32⟩
  | .hbm, ⟨6, _⟩ => ⟨S1x4096x2048, .f32⟩
  | .hbm, ⟨7, _⟩ => ⟨S4096x2048, .f32⟩
  | .hbm, ⟨8, _⟩ => ⟨S4096x2048, .bf16⟩
  | .hbm, ⟨9, _⟩ => ⟨S4096x2048, .bf16⟩
  | .hbm, ⟨10, _⟩ => ⟨S4x2048x2048, .bf16⟩
  | .hbm, ⟨11, _⟩ => ⟨S4x2048x2048, .bf16⟩
  | .hbm, ⟨12, _⟩ => ⟨S4x4096x2048, .bf16⟩
  | .hbm, ⟨13, _⟩ => ⟨S4096x2048, .f32⟩
  | .hbm, ⟨14, _⟩ => ⟨S4096x2048, .f32⟩
  | .hbm, ⟨15, _⟩ => ⟨S1x4096x2048, .f32⟩
  | .hbm, ⟨16, _⟩ => ⟨S1x4096x2048, .f32⟩
  | .hbm, ⟨17, _⟩ => ⟨S2x4096x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x2048x2048, .bf16⟩
  | .local _ .vmem, ⟨7, _⟩ => ⟨S1x2048x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S4x256x2048, .bf16⟩
  | .local _ .vmem, ⟨11, _⟩ => ⟨S4x256x2048, .bf16⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x4096x2048_S1x4096x2048_0_0_0 : S2x4096x2048.Slices ![0, 0, 0] S1x4096x2048
  shapeCasts_S1x4096x2048_S4096x2048 : S1x4096x2048.ShapeCasts S4096x2048
  slices_S2x4096x2048_S1x4096x2048_1_0_0 : S2x4096x2048.Slices ![1, 0, 0] S1x4096x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  packedbf16_S1x256x2048_S1x256x2048_0_0_0 : (Rect.unit (s := S1x256x2048) ![0, 0, 0] S1x256x2048.size inb_S1x256x2048_S1x256x2048_0_0_0).PackedRows (EltTy.packing .bf16)
  inb_S4x256x2048_S4x256x2048_0_0_0 : ∀ a, (![0, 0, 0] : Fin 3 → Nat) a + S4x256x2048.size a ≤ S4x256x2048.size a
  h_S4x256x2048 : 0 < S4x256x2048.numel
  shapeCasts_S4x256x2048_S4x256x2048 : S4x256x2048.ShapeCasts S4x256x2048
  slices_S4x256x2048_o0_0_0_S1x256x2048 : S4x256x2048.Slices ![0, 0, 0] S1x256x2048
  slices_S4x256x2048_o1_0_0_S1x256x2048 : S4x256x2048.Slices ![1, 0, 0] S1x256x2048
  slices_S4x256x2048_o2_0_0_S1x256x2048 : S4x256x2048.Slices ![2, 0, 0] S1x256x2048
  slices_S4x256x2048_o3_0_0_S1x256x2048 : S4x256x2048.Slices ![3, 0, 0] S1x256x2048
  bcast_S4096x2048_S1x4096x2048_1_2 : S4096x2048.BroadcastsInDim S1x4096x2048 (![1, 2] : Fin 2 → Fin S1x4096x2048.rank)
  concatenates_S1x4096x2048_S1x4096x2048_S2x4096x2048_d0 : Shape.Concatenates [S1x4096x2048, S1x4096x2048] S2x4096x2048 0
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .bf16 = 32 ∨ (Rect.block (s := S4096x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x2048.size a ≤ S4x2048x2048.size a
  hwx0_2 : ∀ i : grid0.Coords, EltTy.bits .bf16 = 32 ∨ (Rect.block (s := S4x2048x2048) S1x2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x2048.size a ≤ S4x2048x2048.size a
  hwx0_3 : ∀ i : grid0.Coords, EltTy.bits .bf16 = 32 ∨ (Rect.block (s := S4x2048x2048) S1x2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S4x4096x2048.size a
  hwx0_4 : ∀ i : grid0.Coords, EltTy.bits .bf16 = 32 ∨ (Rect.block (s := S4x4096x2048) S1x256x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x2048.size a ≤ S4x4096x2048.size a
  hwx1_0 : ∀ i : grid1.Coords, EltTy.bits .bf16 = 32 ∨ (Rect.block (s := S4x4096x2048) S4x256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S4096x2048.size a
  hwx1_1 : ∀ i : grid1.Coords, EltTy.bits .f32 = 32 ∨ (Rect.block (s := S4096x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S4096x2048.size a
  hwx1_2 : ∀ i : grid1.Coords, EltTy.bits .f32 = 32 ∨ (Rect.block (s := S4096x2048) S256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S4096x2048.size a
  hwx1_3 : ∀ i : grid1.Coords, EltTy.bits .f32 = 32 ∨ (Rect.block (s := S4096x2048) S256x2048.size (cc1_transform_3 i) (hinb1_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v4) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x2048x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8) S4x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_0) S256x2048.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_1) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x4096x2048 : Shape := ⟨3, ![2, 4096, 2048]⟩
abbrev S4096x2048 : Shape := ⟨2, ![4096, 2048]⟩
abbrev S4x2048x2048 : Shape := ⟨3, ![4, 2048, 2048]⟩
abbrev S1x4096x2048 : Shape := ⟨3, ![1, 4096, 2048]⟩
abbrev S4x2048x4096 : Shape := ⟨3, ![4, 2048, 4096]⟩
abbrev S4x4096x2048 : Shape := ⟨3, ![4, 4096, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4096x2048, .f32⟩
  | .hbm, ⟨2, _⟩ => ⟨S4x2048x2048, .f32⟩
  | .hbm, ⟨3, _⟩ => ⟨S4x2048x2048, .f32⟩
  | .hbm, ⟨4, _⟩ => ⟨S1x4096x2048, .f32⟩
  | .hbm, ⟨5, _⟩ => ⟨S4096x2048, .f32⟩
  | .hbm, ⟨6, _⟩ => ⟨S1x4096x2048, .f32⟩
  | .hbm, ⟨7, _⟩ => ⟨S4096x2048, .f32⟩
  | .hbm, ⟨8, _⟩ => ⟨S4x2048x4096, .f32⟩
  | .hbm, ⟨9, _⟩ => ⟨S4x4096x2048, .f32⟩
  | .hbm, ⟨10, _⟩ => ⟨S4x2048x4096, .f32⟩
  | .hbm, ⟨11, _⟩ => ⟨S4x4096x2048, .f32⟩
  | .hbm, ⟨12, _⟩ => ⟨S4x4096x2048, .f32⟩
  | .hbm, ⟨13, _⟩ => ⟨S1x4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S1x4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S1x4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S1x4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x4096x2048, .f32⟩
  | .hbm, ⟨52, _⟩ => ⟨S1x4096x2048, .f32⟩
  | .hbm, ⟨53, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]

class Facts₀ : Prop where
  slices_S2x4096x2048_S1x4096x2048_0_0_0 : S2x4096x2048.Slices ![0, 0, 0] S1x4096x2048
  shapeCasts_S1x4096x2048_S4096x2048 : S1x4096x2048.ShapeCasts S4096x2048
  slices_S2x4096x2048_S1x4096x2048_1_0_0 : S2x4096x2048.Slices ![1, 0, 0] S1x4096x2048
  transposes_S4x2048x4096_S4x4096x2048_0_2_1 : S4x2048x4096.Transposes [0, 2, 1] S4x4096x2048
  slices_S4x4096x2048_S1x4096x2048_0_0_0 : S4x4096x2048.Slices ![0, 0, 0] S1x4096x2048
  bcast_S_S4096x2048 : S_.BroadcastsInDim S4096x2048 (![] : Fin 0 → Fin S4096x2048.rank)
  slices_S4x4096x2048_S1x4096x2048_1_0_0 : S4x4096x2048.Slices ![1, 0, 0] S1x4096x2048
  slices_S4x4096x2048_S1x4096x2048_2_0_0 : S4x4096x2048.Slices ![2, 0, 0] S1x4096x2048
  slices_S4x4096x2048_S1x4096x2048_3_0_0 : S4x4096x2048.Slices ![3, 0, 0] S1x4096x2048
  bcast_S4096x2048_S1x4096x2048_1_2 : S4096x2048.BroadcastsInDim S1x4096x2048 (![1, 2] : Fin 2 → Fin S1x4096x2048.rank)
  concatenates_S1x4096x2048_S1x4096x2048_S2x4096x2048_d0 : Shape.Concatenates [S1x4096x2048, S1x4096x2048] S2x4096x2048 0
  dot_S4x2048x2048_S4096x2048_S4x2048x4096_2_1_01_0_n_n_wf : DotDims.WF S4x2048x2048 S4096x2048 S4x2048x4096 [2] [1] [0, 1] [0] [] []

variable [Facts₀]

def dot_S4x2048x2048_S4096x2048_S4x2048x4096_2_1_01_0_n_n : DotDims S4x2048x2048 S4096x2048 S4x2048x4096 where
  lhsContracting := [2]
  rhsContracting := [1]
  lhsNonContracting := [0, 1]
  rhsNonContracting := [0]
  lhsBatch := []
  rhsBatch := []
  wf := dot_S4x2048x2048_S4096x2048_S4x2048x4096_2_1_01_0_n_n_wf

class Facts : Prop extends Facts₀ where

variable [Facts]
-- ==== Proof.Spec.lean ====
/-
  One step of an LSTM cell as functions on the extended reals, entry by entry.
  From the layer's previous state `s` ([2, 4096, 2048]: plane 0 the hidden state, plane 1 the cell state), the
  input `x` ([4096, 2048]) and the two weight stacks `W`, `U` ([4, 2048, 2048], one [units, inputs] matrix per gate):
    gate g at (b, u)   =  Σ_k x(b,k)·W(g,u,k)  +  Σ_k s(0,b,k)·U(g,u,k)
    cell at (b, u)     =  σ(gate 1)·s(1,b,u) + σ(gate 0)·tanh(gate 3)
    hidden at (b, u)   =  σ(gate 2)·tanh(cell)
  with σ the logistic function `1 / (1 + e⁻ᵗ)` and every operation the exact one on the extended reals.
-/
import Idealize.ShloMosaic.PureOps.Ideal
import Idealize.ShloMosaic.Lib.ValueIdx

noncomputable section

namespace Cert.LstmSpec

open Idealize.ShloMosaic Idealize.ShloMosaic.ValueIdx

/-- The [2, 4096, 2048] state, the [4096, 2048] input and the [4, 2048, 2048] weight stacks, as arrays of extended reals. -/
abbrev StateArr : Type := (⟨3, ![2, 4096, 2048]⟩ : Shape).Idx → EReal
abbrev RowsArr : Type := (⟨2, ![4096, 2048]⟩ : Shape).Idx → EReal
abbrev WeightArr : Type := (⟨3, ![4, 2048, 2048]⟩ : Shape).Idx → EReal
abbrev GatesArr : Type := (⟨3, ![4, 4096, 2048]⟩ : Shape).Idx → EReal

/-- The pre-activation of gate `g` for batch row `b` and unit `u`, from an input array `x`, a hidden-state array `h`
    and the two weight stacks: the row of `x` against row `u` of `W g`, plus the row of `h` against row `u` of `U g`. -/
def preact (x h : RowsArr) (W U : WeightArr) (g : Fin 4) (b : Fin 4096) (u : Fin 2048) : EReal :=
  (∑ k : Fin 2048, x (ix2 b k) * W (ix3 g u k)) + ∑ k : Fin 2048, h (ix2 b k) * U (ix3 g u k)

/-- All four gates' pre-activations as one [4, 4096, 2048] array. -/
def preactArr (x h : RowsArr) (W U : WeightArr) : GatesArr := fun i => preact x h W U (i 0) (i 1) (i 2)

/-- The new cell state at (b, u) from a gates array `G` and the previous cell state `pc`:
    forget gate (1) times the previous cell, plus input gate (0) times the candidate (tanh of gate 3). -/
def cellOf (G : GatesArr) (pc : RowsArr) (b : Fin 4096) (u : Fin 2048) : EReal :=
  Ideal.logistic (G (ix3 1 b u)) * pc (ix2 b u) + Ideal.logistic (G (ix3 0 b u)) * Ideal.tanh (G (ix3 3 b u))

/-- The new hidden state at (b, u): output gate (2) times tanh of the new cell state. -/
def hiddenOf (G : GatesArr) (pc : RowsArr) (b : Fin 4096) (u : Fin 2048) : EReal :=
  Ideal.logistic (G (ix3 2 b u)) * Ideal.tanh (cellOf G pc b u)

/-- The two as [4096, 2048] arrays. -/
def cellArr (G : GatesArr) (pc : RowsArr) : RowsArr := fun i => cellOf G pc (i 0) (i 1)
def hiddenArr (G : GatesArr) (pc : RowsArr) : RowsArr := fun i => hiddenOf G pc (i 0) (i 1)

/-- Plane `p` of the state as a [4096, 2048] array. -/
def plane (s : StateArr) (p : Fin 2) : RowsArr := fun i => s (ix3 p (i 0) (i 1))

/-- The f32 pattern of one denotes the extended real one. -/
theorem ofBits_one_f32 : Ideal.ofBits .f32 0x3F800000#32 = 1 := by
  simp [Ideal.ofBits, Ideal.ieee, -EReal.coe_mul]; norm_num

/-- The logistic function spelt with a quotient, as a host program expands it, is the logistic function. -/
theorem logistic_expanded (t : EReal) :
    Ideal.div (Ideal.ofBits .f32 0x3F800000#32) (Ideal.ofBits .f32 0x3F800000#32 + Ideal.exp (-t)) = Ideal.logistic t := by
  rw [ofBits_one_f32]; rfl

end Cert.LstmSpec

end
-- ==== Proof.LibMatmulRowsRows.lean ====
/-
  A general fact about rank-2 blocks at the ideal values, stated for any extents.

  A kernel's matrix product that contracts the SECOND axis of both operands — an m×k block against an n×k block, rows
  against rows, as a product with a transposed right operand is written — into the zero accumulator, read at entry (a, b),
  is the plain sum over the contracted coordinate c of A(a, c) · B(b, c), whatever contraction precision the operation carries:
  at the ideal values the product into zero is the sum, over the contraction index, of the operands' products, and with one
  contracted axis that index is its coordinate.
-/
import Idealize.ShloMosaic.PureOps.Ideal.Laws
import Idealize.ShloMosaic.Lib.ValueIdx

noncomputable section

open scoped BigOperators

namespace Cert.LibMatmulRowsRows

open Idealize.ShloMosaic Idealize.ShloMosaic.ValueIdx

/-- The product of an m×k block by an n×k block, both contracted on their second axis, into the zero accumulator, at the
    ideal values, read at (a, b): Σ_c A(a, c) · B(b, c). The precision argument plays no part: the ideal product is exact. -/
theorem matmul_transposedRhs_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    FloatOps.matmul (DotDims.transposedRhs m k n) prec A B (constant ⟨2, ![m, n]⟩ .f32 0x00000000#32) (ix2 a b)
      = ∑ c : Fin k, A (ix2 a c) * B (ix2 b c) := by
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibMatmulRowsRows

end
-- ==== Proof.GatesBody.lean ====
/-
  The first kernel's body at an entry. Its one store writes, at (0, r, n) of the [1, 256, 2048] output block,
      Σ_k x(r,k)·w(0,n,k)  +  Σ_k h(r,k)·u(0,n,k)
  for the loaded input rows `x`, `h` ([256, 2048]) and the loaded weight matrices `w`, `u` ([1, 2048, 2048]): each matrix
  product contracts the second axis of BOTH operands (rows against rows), accumulates into zero, and the change of
  float format after the sum is the identity on the extended reals.
-/
import proofs.«170174_j7473243095127_1_alg».proof.Proof.Gen.KernelIdeal.Skeleton
import proofs.«170174_j7473243095127_1_alg».proof.Proof.LibMatmulRowsRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GatesBody

open Cert.KernelIdeal Cert.KernelIdeal.Gen Idealize.ShloMosaic Idealize.ShloMosaic.ValueIdx

/-- The body's product is the rows-against-rows product of a [256, 2048] block by a [2048, 2048] block: at (r, n), into the
    zero accumulator, the sum over k of A(r,k)·B(n,k). -/
theorem rowsProduct_apply (A : FVec Ideal S256x2048 .bf16) (B : FVec Ideal S2048x2048 .bf16) (r : Fin 256) (n : Fin 2048) :
    matmul dot_S256x2048_S2048x2048_S256x2048_1_1_0_0_n_n none A B (constant (F := Ideal) S256x2048 .f32 0x00000000#32) (ix2 r n)
      = ∑ k : Fin 2048, A (ix2 r k) * B (ix2 n k) :=
  Cert.LibMatmulRowsRows.matmul_transposedRhs_zero_apply none A B r n

/-- The body's stored value at (0, r, n). -/
theorem stored_apply (x : FVec Ideal S256x2048 .bf16) (w : FVec Ideal S1x2048x2048 .bf16) (h : FVec Ideal S256x2048 .bf16)
    (u : FVec Ideal S1x2048x2048 .bf16) (z : Fin 1) (r : Fin 256) (n : Fin 2048) :
    k0_pay1 (F := Ideal) x w h u (ix3 z r n)
      = (∑ k : Fin 2048, x (ix2 r k) * w (ix3 (0 : Fin 1) n k)) + ∑ k : Fin 2048, h (ix2 r k) * u (ix3 (0 : Fin 1) n k) := by
  unfold k0_pay1
  rw [shapeCast_ab_1ab_apply, truncf_apply, addf_apply, rowsProduct_apply, rowsProduct_apply]
  simp only [shapeCast_self, shapeCast_1ab_ab_apply]

end Cert.KernelIdeal.GatesBody

end
-- ==== Proof.GatesArray.lean ====
/-
  The first pallas_call's result array. Its grid is 4 gates by 16 row tiles; the point (g, i) reads rows 256·i … 256·i + 255 of
  the two row arrays and the whole matrix g of each weight stack, and writes back block (g, i, 0) of the [4, 4096, 2048] result.
  Every block written is the same function of the arrays the region finds, restricted to the block: entry (g, b, u) is
      Σ_k X(b,k)·W(g,u,k)  +  Σ_k H(b,k)·U(g,u,k),
  and the 64 blocks tile the result. So after the region the result array is that function everywhere.
  Stated at any contents `V` of the buffers when the region is entered.
-/
import proofs.«170174_j7473243095127_1_alg».proof.Proof.Gen.KernelIdeal.Frame
import proofs.«170174_j7473243095127_1_alg».proof.Proof.GatesBody
import proofs.«170174_j7473243095127_1_alg».proof.Proof.Spec
import Idealize.ShloMosaic.Lib.Pipeline.Value
import Idealize.ShloMosaic.Lib.ValueIdx

set_option maxRecDepth 16384

noncomputable section

namespace Cert.KernelIdeal.GatesArray

open Cert.KernelIdeal Cert.KernelIdeal.Gen Cert.LstmSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The arrays the region reads, as it finds them: the input rows, the hidden-state rows, the two weight stacks. -/
abbrev X (c : Dev nD) : RowsArr := V c main_v4
abbrev H (c : Dev nD) : RowsArr := V c main_v5
abbrev Wt (c : Dev nD) : WeightArr := V c main_v6
abbrev Ut (c : Dev nD) : WeightArr := V c main_v7

/-- The four input blocks at a point, at their literal types. -/
abbrev xblk (c : Dev nD) (t : Fin cfg0.N) : FVec Ideal S256x2048 .bf16 := iblk0 V c 0 t
abbrev hblk (c : Dev nD) (t : Fin cfg0.N) : FVec Ideal S256x2048 .bf16 := iblk0 V c 1 t
abbrev wblk (c : Dev nD) (t : Fin cfg0.N) : FVec Ideal S1x2048x2048 .bf16 := iblk0 V c 2 t
abbrev ublk (c : Dev nD) (t : Fin cfg0.N) : FVec Ideal S1x2048x2048 .bf16 := iblk0 V c 3 t

/-- The printed index maps, decided over the 64 points: the row windows follow the result's row-tile index, the weight windows
    its gate index, every other block index is 0, and the result's block indices stay in range. -/
theorem idx_facts : ∀ t : Fin cfg0.N,
    win0_0.index t (0 : Fin 2) = win0_4.index t (1 : Fin 3) ∧ win0_0.index t (1 : Fin 2) = 0
    ∧ win0_1.index t (0 : Fin 2) = win0_4.index t (1 : Fin 3) ∧ win0_1.index t (1 : Fin 2) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 3 ∧ win0_4.index t (1 : Fin 3) ≤ 15 ∧ win0_4.index t (2 : Fin 3) = 0 :=
  (by decide +kernel : ∀ t : Fin grid0.N, _)

/-- Every (gate, row tile) is some point's result block. -/
theorem idx_onto : ∀ (q0 : Fin 4) (q1 : Fin 16), ∃ t : Fin cfg0.N, win0_4.index t = ![q0.val, q1.val, 0] :=
  (by decide +kernel : ∀ (q0 : Fin 4) (q1 : Fin 16), ∃ t : Fin grid0.N, win0_4.index t = ![q0.val, q1.val, 0])

/-- A row block at (r, k) is the array at the block's row offset plus r. -/
theorem xblk_apply (c : Dev nD) (t : Fin cfg0.N) (r : Fin 256) (k : Fin 2048) (i : S4096x2048.Idx)
    (hi0 : (i 0).val = win0_0.index t (0 : Fin 2) * 256 + r.val) (hi1 : (i 1).val = win0_0.index t (1 : Fin 2) * 2048 + k.val) :
    xblk V c t (ix2 r k) = X V c i := by
  show iblk0 V c 0 t (ix2 r k) = V c main_v4 i
  unfold iblk0
  rw [View.read_apply]
  show V c main_v4 _ = V c main_v4 _
  congr 1
  funext a
  apply Fin.ext
  match a with
  | ⟨0, _⟩ => show win0_0.index t (0 : Fin 2) * 256 + 1 * r.val = (i 0).val; omega
  | ⟨1, _⟩ => show win0_0.index t (1 : Fin 2) * 2048 + 1 * k.val = (i 1).val; omega

theorem hblk_apply (c : Dev nD) (t : Fin cfg0.N) (r : Fin 256) (k : Fin 2048) (i : S4096x2048.Idx)
    (hi0 : (i 0).val = win0_1.index t (0 : Fin 2) * 256 + r.val) (hi1 : (i 1).val = win0_1.index t (1 : Fin 2) * 2048 + k.val) :
    hblk V c t (ix2 r k) = H V c i := by
  show iblk0 V c 1 t (ix2 r k) = V c main_v5 i
  unfold iblk0
  rw [View.read_apply]
  show V c main_v5 _ = V c main_v5 _
  congr 1
  funext a
  apply Fin.ext
  match a with
  | ⟨0, _⟩ => show win0_1.index t (0 : Fin 2) * 256 + 1 * r.val = (i 0).val; omega
  | ⟨1, _⟩ => show win0_1.index t (1 : Fin 2) * 2048 + 1 * k.val = (i 1).val; omega

/-- A weight block at (z, n, k) is the stack at the block's gate offset plus z. -/
theorem wblk_apply (c : Dev nD) (t : Fin cfg0.N) (n k : Fin 2048) (i : S4x2048x2048.Idx)
    (hi0 : (i 0).val = win0_2.index t (0 : Fin 3)) (hi1 : (i 1).val = win0_2.index t (1 : Fin 3) * 2048 + n.val)
    (hi2 : (i 2).val = win0_2.index t (2 : Fin 3) * 2048 + k.val) :
    wblk V c t (ix3 (0 : Fin 1) n k) = Wt V c i := by
  show iblk0 V c 2 t (ix3 (0 : Fin 1) n k) = V c main_v6 i
  unfold iblk0
  rw [View.read_apply]
  show V c main_v6 _ = V c main_v6 _
  congr 1
  funext a
  apply Fin.ext
  match a with
  | ⟨0, _⟩ => show win0_2.index t (0 : Fin 3) * 1 + 1 * 0 = (i 0).val; omega
  | ⟨1, _⟩ => show win0_2.index t (1 : Fin 3) * 2048 + 1 * n.val = (i 1).val; omega
  | ⟨2, _⟩ => show win0_2.index t (2 : Fin 3) * 2048 + 1 * k.val = (i 2).val; omega

theorem ublk_apply (c : Dev nD) (t : Fin cfg0.N) (n k : Fin 2048) (i : S4x2048x2048.Idx)
    (hi0 : (i 0).val = win0_3.index t (0 : Fin 3)) (hi1 : (i 1).val = win0_3.index t (1 : Fin 3) * 2048 + n.val)
    (hi2 : (i 2).val = win0_3.index t (2 : Fin 3) * 2048 + k.val) :
    ublk V c t (ix3 (0 : Fin 1) n k) = Ut V c i := by
  show iblk0 V c 3 t (ix3 (0 : Fin 1) n k) = V c main_v7 i
  unfold iblk0
  rw [View.read_apply]
  show V c main_v7 _ = V c main_v7 _
  congr 1
  funext a
  apply Fin.ext
  match a with
  | ⟨0, _⟩ => show win0_3.index t (0 : Fin 3) * 1 + 1 * 0 = (i 0).val; omega
  | ⟨1, _⟩ => show win0_3.index t (1 : Fin 3) * 2048 + 1 * n.val = (i 1).val; omega
  | ⟨2, _⟩ => show win0_3.index t (2 : Fin 3) * 2048 + 1 * k.val = (i 2).val; omega

/-- WHAT POINT `t` WRITES BACK is block `t` of the pre-activations of the arrays the region finds. -/
theorem flushed_eq (c : Dev nD) (t : Fin cfg0.N) :
    (dat0 V c).flushed 4 t = ((cfg0.win 4).blk t).view.read (Elt Ideal) (preactArr (X V c) (H V c) (Wt V c) (Ut V c)) := by
  show (cfg0.win 4).cut (grid0.coords t) ((dat0 V c).after 4 t) = _
  rw [after0_4]
  unfold out0_4
  rw [View.canon_unit_zero hz3]
  simp only [View.ld_unit_zero (S := S256x2048) hz2, View.ld_unit_zero (S := S1x2048x2048) hz3]
  obtain ⟨e0, e1, e2, e3, e4, e5, e6, e7, e8, e9, b0, b1, e10⟩ := idx_facts t
  funext j
  obtain ⟨z, r, n, rfl⟩ : ∃ (z : Fin 1) (r : Fin 256) (n : Fin 2048), j = ix3 z r n := ⟨j 0, j 1, j 2, eq_ix3 j⟩
  rw [View.read_apply]
  refine (GatesBody.stored_apply (xblk V c t) (wblk V c t) (hblk V c t) (ublk V c t) z r n).trans ?_
  have hz : z.val = 0 := by omega
  show _ = preact (X V c) (H V c) (Wt V c) (Ut V c) ((((cfg0.win 4).blk t).view.emb (ix3 z r n)) 0) ((((cfg0.win 4).blk t).view.emb (ix3 z r n)) 1) ((((cfg0.win 4).blk t).view.emb (ix3 z r n)) 2)
  have E0 : ((((cfg0.win 4).blk t).view.emb (ix3 z r n)) 0).val = win0_4.index t (0 : Fin 3) * 1 + 1 * z.val := rfl
  have E1 : ((((cfg0.win 4).blk t).view.emb (ix3 z r n)) 1).val = win0_4.index t (1 : Fin 3) * 256 + 1 * r.val := rfl
  have E2 : ((((cfg0.win 4).blk t).view.emb (ix3 z r n)) 2).val = win0_4.index t (2 : Fin 3) * 2048 + 1 * n.val := rfl
  unfold preact
  refine congrArg₂ (· + ·) (Finset.sum_congr rfl fun k _ => ?_) (Finset.sum_congr rfl fun k _ => ?_)
  · refine congrArg₂ (· * ·) (xblk_apply V c t r k _ ?_ ?_) (wblk_apply V c t n k _ ?_ ?_ ?_)
    · show ((((cfg0.win 4).blk t).view.emb (ix3 z r n)) 1).val = _; omega
    · show k.val = _; omega
    · show ((((cfg0.win 4).blk t).view.emb (ix3 z r n)) 0).val = _; omega
    · show ((((cfg0.win 4).blk t).view.emb (ix3 z r n)) 2).val = _; omega
    · show k.val = _; omega
  · refine congrArg₂ (· * ·) (hblk_apply V c t r k _ ?_ ?_) (ublk_apply V c t n k _ ?_ ?_ ?_)
    · show ((((cfg0.win 4).blk t).view.emb (ix3 z r n)) 1).val = _; omega
    · show k.val = _; omega
    · show ((((cfg0.win 4).blk t).view.emb (ix3 z r n)) 0).val = _; omega
    · show ((((cfg0.win 4).blk t).view.emb (ix3 z r n)) 2).val = _; omega
    · show k.val = _; omega

/-- An index of the result is in point `t`'s block iff each coordinate is in the block's range on its axis. -/
theorem mem_blk (t : Fin cfg0.N) (i : S4x4096x2048.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v8).slice (win0_4.rect t)).set ↔ _
  rw [View.set_slice_whole, Rect.mem_set_unit]
  exact Iff.rfl

/-- The blocks tile the result: entry (g, b, u) is in the block of the point whose gate index is g and row tile b / 256. -/
theorem cover (i : S4x4096x2048.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 2048 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- THE RESULT ARRAY after the region: the pre-activations of the arrays the region finds. -/
theorem final (c : Dev nD) : (dat0 V c).arrAt 4 cfg0.N = preactArr (X V c) (H V c) (Wt V c) (Ut V c) :=
  (dat0 V c).arrAt_eq_of_cover 4 (preactArr (X V c) (H V c) (Wt V c) (Ut V c)) (fun t _ => flushed_eq V c t) cover

end Cert.KernelIdeal.GatesArray

end
-- ==== Proof.CombineBody.lean ====
/-
  The second kernel's body at an entry. From the loaded [4, 256, 2048] gates block `g` (its change of float format is the
  identity on the extended reals) and the loaded [256, 2048] block `pc` of the previous cell state it stores
      new cell   at (r, n)  =  σ(g(1,r,n))·pc(r,n) + σ(g(0,r,n))·tanh(g(3,r,n))
      new hidden at (r, n)  =  σ(g(2,r,n))·tanh(new cell at (r, n)).
-/
import proofs.«170174_j7473243095127_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.CombineBody

open Cert.KernelIdeal Cert.KernelIdeal.Gen Idealize.ShloMosaic Idealize.ShloMosaic.ValueIdx

/-- Plane `p` of the widened gates block, viewed [256, 2048], reads the loaded block at (p, r, n). -/
theorem plane_apply (g : FVec Ideal S4x256x2048 .bf16) (p : Nat) (hp : p < 4) (hs : S4x256x2048.Slices ![p, 0, 0] S1x256x2048)
    (hc : S1x256x2048.ShapeCasts S256x2048) (r : Fin 256) (n : Fin 2048) :
    shapeCast S256x2048 (extractStridedSlice S1x256x2048 ![p, 0, 0] (k1_pay1 (F := Ideal) g) hs) hc (ix2 r n) = g (ix3 (⟨p, hp⟩ : Fin 4) r n) := by
  rw [shapeCast_1ab_ab_apply]
  rw [extractStridedSlice_apply ![p, 0, 0] (k1_pay1 (F := Ideal) g) hs (ix3 (0 : Fin 1) r n) (ix3 (⟨p, hp⟩ : Fin 4) r n) (fun a => match a with
    | ⟨0, _⟩ => by show p = p + 0; omega
    | ⟨1, _⟩ => by show r.val = 0 + r.val; omega
    | ⟨2, _⟩ => by show n.val = 0 + n.val; omega)]
  unfold k1_pay1
  rw [extf_apply, shapeCast_self]

/-- The stored new cell state at (r, n). -/
theorem cell_apply (g : FVec Ideal S4x256x2048 .bf16) (pc : FVec Ideal S256x2048 .f32) (r : Fin 256) (n : Fin 2048) :
    k1_pay2 (F := Ideal) g pc (ix2 r n)
      = Ideal.logistic (g (ix3 (1 : Fin 4) r n)) * pc (ix2 r n) + Ideal.logistic (g (ix3 (0 : Fin 4) r n)) * Ideal.tanh (g (ix3 (3 : Fin 4) r n)) := by
  unfold k1_pay2
  rw [addf_apply, mulf_apply, mulf_apply]
  show Ideal.logistic (shapeCast S256x2048 _ _ (ix2 r n)) * shapeCast S256x2048 pc _ (ix2 r n)
      + Ideal.logistic (shapeCast S256x2048 _ _ (ix2 r n)) * Ideal.tanh (shapeCast S256x2048 _ _ (ix2 r n)) = _
  rw [shapeCast_self pc, plane_apply g 1 (by decide), plane_apply g 0 (by decide), plane_apply g 3 (by decide)]
  rfl

/-- The stored new hidden state at (r, n). -/
theorem hidden_apply (g : FVec Ideal S4x256x2048 .bf16) (pc : FVec Ideal S256x2048 .f32) (r : Fin 256) (n : Fin 2048) :
    k1_pay3 (F := Ideal) g pc (ix2 r n)
      = Ideal.logistic (g (ix3 (2 : Fin 4) r n)) * Ideal.tanh (k1_pay2 (F := Ideal) g pc (ix2 r n)) := by
  unfold k1_pay3
  rw [mulf_apply]
  show Ideal.logistic (shapeCast S256x2048 _ _ (ix2 r n)) * Ideal.tanh (k1_pay2 (F := Ideal) g pc (ix2 r n)) = _
  rw [plane_apply g 2 (by decide)]
  rfl

end Cert.KernelIdeal.CombineBody

end
-- ==== Proof.CombineArray.lean ====
/-
  The second pallas_call's two result arrays. Its grid is 16 row tiles; point i reads rows 256·i … 256·i + 255 of all four planes of
  the gates array and of the previous cell state, and writes back block (i, 0) of the new hidden state and of the new cell state.
  Every block written is the same function of the arrays the region finds, restricted to the block, and the 16 blocks tile each
  result: after the region the two arrays are the new hidden state and the new cell state of the gates array and the previous cell
  state, entry by entry. Stated at any contents `V` of the buffers when the region is entered.
-/
import proofs.«170174_j7473243095127_1_alg».proof.Proof.Gen.KernelIdeal.Frame
import proofs.«170174_j7473243095127_1_alg».proof.Proof.CombineBody
import proofs.«170174_j7473243095127_1_alg».proof.Proof.Spec
import Idealize.ShloMosaic.Lib.Pipeline.Value
import Idealize.ShloMosaic.Lib.ValueIdx

set_option maxRecDepth 16384

noncomputable section

namespace Cert.KernelIdeal.CombineArray

open Cert.KernelIdeal Cert.KernelIdeal.Gen Cert.LstmSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The arrays the region reads, as it finds them: the gates array and the previous cell state. -/
abbrev G (c : Dev nD) : GatesArr := V c main_v8
abbrev PC (c : Dev nD) : RowsArr := V c main_v3

/-- The two input blocks at a point, at their literal types. -/
abbrev gblk (c : Dev nD) (t : Fin cfg1.N) : FVec Ideal S4x256x2048 .bf16 := iblk1 V c 0 t
abbrev pcblk (c : Dev nD) (t : Fin cfg1.N) : FVec Ideal S256x2048 .f32 := iblk1 V c 1 t

/-- The printed index maps, decided over the 16 points: every window follows the row tile, every other block index is 0. -/
theorem idx_facts : ∀ t : Fin cfg1.N,
    win1_0.index t (0 : Fin 3) = 0 ∧ win1_0.index t (1 : Fin 3) = win1_2.index t (0 : Fin 2) ∧ win1_0.index t (2 : Fin 3) = 0
    ∧ win1_1.index t (0 : Fin 2) = win1_2.index t (0 : Fin 2) ∧ win1_1.index t (1 : Fin 2) = 0
    ∧ win1_3.index t (0 : Fin 2) = win1_2.index t (0 : Fin 2) ∧ win1_3.index t (1 : Fin 2) = 0
    ∧ win1_2.index t (0 : Fin 2) ≤ 15 ∧ win1_2.index t (1 : Fin 2) = 0 :=
  (by decide +kernel : ∀ t : Fin grid1.N, _)

/-- Every row tile is some point's result block, of either result. -/
theorem idx_onto : ∀ q : Fin 16, ∃ t : Fin cfg1.N, win1_2.index t = ![q.val, 0] ∧ win1_3.index t = ![q.val, 0] :=
  (by decide +kernel : ∀ q : Fin 16, ∃ t : Fin grid1.N, win1_2.index t = ![q.val, 0] ∧ win1_3.index t = ![q.val, 0])

/-- The gates block at (p, r, n) is the gates array at the block's row offset plus r, plane p. -/
theorem gblk_apply (c : Dev nD) (t : Fin cfg1.N) (p : Fin 4) (r : Fin 256) (n : Fin 2048) (i : S4x4096x2048.Idx)
    (hi0 : (i 0).val = win1_0.index t (0 : Fin 3) * 4 + p.val) (hi1 : (i 1).val = win1_0.index t (1 : Fin 3) * 256 + r.val)
    (hi2 : (i 2).val = win1_0.index t (2 : Fin 3) * 2048 + n.val) :
    gblk V c t (ix3 p r n) = G V c i := by
  show iblk1 V c 0 t (ix3 p r n) = V c main_v8 i
  unfold iblk1
  rw [View.read_apply]
  show V c main_v8 _ = V c main_v8 _
  congr 1
  funext a
  apply Fin.ext
  match a with
  | ⟨0, _⟩ => show win1_0.index t (0 : Fin 3) * 4 + 1 * p.val = (i 0).val; omega
  | ⟨1, _⟩ => show win1_0.index t (1 : Fin 3) * 256 + 1 * r.val = (i 1).val; omega
  | ⟨2, _⟩ => show win1_0.index t (2 : Fin 3) * 2048 + 1 * n.val = (i 2).val; omega

/-- The previous-cell block at (r, n) is the array at the block's row offset plus r. -/
theorem pcblk_apply (c : Dev nD) (t : Fin cfg1.N) (r : Fin 256) (n : Fin 2048) (i : S4096x2048.Idx)
    (hi0 : (i 0).val = win1_1.index t (0 : Fin 2) * 256 + r.val) (hi1 : (i 1).val = win1_1.index t (1 : Fin 2) * 2048 + n.val) :
    pcblk V c t (ix2 r n) = PC V c i := by
  show iblk1 V c 1 t (ix2 r n) = V c main_v3 i
  unfold iblk1
  rw [View.read_apply]
  show V c main_v3 _ = V c main_v3 _
  congr 1
  funext a
  apply Fin.ext
  match a with
  | ⟨0, _⟩ => show win1_1.index t (0 : Fin 2) * 256 + 1 * r.val = (i 0).val; omega
  | ⟨1, _⟩ => show win1_1.index t (1 : Fin 2) * 2048 + 1 * n.val = (i 1).val; omega

/-- The body's new cell state at (r, n) of a point's blocks is the new cell state of the arrays at the entry (b, n) the block's
    (r, n) sits at, whichever of the two result windows names that entry. -/
theorem cell_at (c : Dev nD) (t : Fin cfg1.N) (r : Fin 256) (n : Fin 2048) (b : Fin 4096) (u : Fin 2048)
    (hb : b.val = win1_2.index t (0 : Fin 2) * 256 + r.val) (hu : u.val = n.val) :
    k1_pay2 (F := Ideal) (gblk V c t) (pcblk V c t) (ix2 r n) = cellOf (G V c) (PC V c) b u := by
  obtain ⟨e0, e1, e2, e3, e4, e5, e6, b0, e7⟩ := idx_facts t
  rw [CombineBody.cell_apply]
  have hg : ∀ p : Fin 4, gblk V c t (ix3 p r n) = G V c (ix3 p b u) := fun p =>
    gblk_apply V c t p r n (ix3 p b u) (by show p.val = _; omega) (by show b.val = _; omega) (by show u.val = _; omega)
  have hp : pcblk V c t (ix2 r n) = PC V c (ix2 b u) :=
    pcblk_apply V c t r n (ix2 b u) (by show b.val = _; omega) (by show u.val = _; omega)
  unfold cellOf
  rw [hg 1, hg 0, hg 3, hp]

theorem hidden_at (c : Dev nD) (t : Fin cfg1.N) (r : Fin 256) (n : Fin 2048) (b : Fin 4096) (u : Fin 2048)
    (hb : b.val = win1_2.index t (0 : Fin 2) * 256 + r.val) (hu : u.val = n.val) :
    k1_pay3 (F := Ideal) (gblk V c t) (pcblk V c t) (ix2 r n) = hiddenOf (G V c) (PC V c) b u := by
  obtain ⟨e0, e1, e2, e3, e4, e5, e6, b0, e7⟩ := idx_facts t
  rw [CombineBody.hidden_apply, cell_at V c t r n b u hb hu]
  have hg : gblk V c t (ix3 (2 : Fin 4) r n) = G V c (ix3 (2 : Fin 4) b u) :=
    gblk_apply V c t 2 r n (ix3 2 b u) (by show (2 : Fin 4).val = _; omega) (by show b.val = _; omega) (by show u.val = _; omega)
  unfold hiddenOf
  rw [hg]

/-- WHAT POINT `t` WRITES BACK to the first result is block `t` of the new hidden state. -/
theorem flushed_hidden (c : Dev nD) (t : Fin cfg1.N) :
    (dat1 V c).flushed 2 t = ((cfg1.win 2).blk t).view.read (Elt Ideal) (hiddenArr (G V c) (PC V c)) := by
  show (cfg1.win 2).cut (grid1.coords t) ((dat1 V c).after 2 t) = _
  rw [after1_2]
  unfold out1_2
  rw [View.canon_unit_zero hz2]
  simp only [View.ld_unit_zero (S := S4x256x2048) hz3, View.ld_unit_zero (S := S256x2048) hz2]
  obtain ⟨e0, e1, e2, e3, e4, e5, e6, b0, e7⟩ := idx_facts t
  funext j
  obtain ⟨r, n, rfl⟩ : ∃ (r : Fin 256) (n : Fin 2048), j = ix2 r n := ⟨j 0, j 1, eq_ix2 j⟩
  rw [View.read_apply]
  show k1_pay3 (F := Ideal) (gblk V c t) (pcblk V c t) (ix2 r n) = hiddenOf (G V c) (PC V c) ((((cfg1.win 2).blk t).view.emb (ix2 r n)) 0) ((((cfg1.win 2).blk t).view.emb (ix2 r n)) 1)
  refine hidden_at V c t r n _ _ ?_ ?_
  · show win1_2.index t (0 : Fin 2) * 256 + 1 * r.val = _; omega
  · show win1_2.index t (1 : Fin 2) * 2048 + 1 * n.val = _; omega

/-- WHAT POINT `t` WRITES BACK to the second result is block `t` of the new cell state. -/
theorem flushed_cell (c : Dev nD) (t : Fin cfg1.N) :
    (dat1 V c).flushed 3 t = ((cfg1.win 3).blk t).view.read (Elt Ideal) (cellArr (G V c) (PC V c)) := by
  show (cfg1.win 3).cut (grid1.coords t) ((dat1 V c).after 3 t) = _
  rw [after1_3]
  unfold out1_3
  rw [View.canon_unit_zero hz2]
  simp only [View.ld_unit_zero (S := S4x256x2048) hz3, View.ld_unit_zero (S := S256x2048) hz2]
  obtain ⟨e0, e1, e2, e3, e4, e5, e6, b0, e7⟩ := idx_facts t
  funext j
  obtain ⟨r, n, rfl⟩ : ∃ (r : Fin 256) (n : Fin 2048), j = ix2 r n := ⟨j 0, j 1, eq_ix2 j⟩
  rw [View.read_apply]
  show k1_pay2 (F := Ideal) (gblk V c t) (pcblk V c t) (ix2 r n) = cellOf (G V c) (PC V c) ((((cfg1.win 3).blk t).view.emb (ix2 r n)) 0) ((((cfg1.win 3).blk t).view.emb (ix2 r n)) 1)
  refine cell_at V c t r n _ _ ?_ ?_
  · show win1_3.index t (0 : Fin 2) * 256 + 1 * r.val = _; omega
  · show win1_3.index t (1 : Fin 2) * 2048 + 1 * n.val = _; omega

/-- An index of a result is in point `t`'s block iff each coordinate is in the block's range on its axis. -/
theorem mem_blk2 (t : Fin cfg1.N) (i : S4096x2048.Idx) :
    i ∈ ((cfg1.win 2).blk t).view.set ↔ ∀ a : Fin 2, win1_2.index t a * S256x2048.size a ≤ (i a).val ∧ (i a).val < win1_2.index t a * S256x2048.size a + S256x2048.size a := by
  show i ∈ ((View.whole main_v9_0).slice (win1_2.rect t)).set ↔ _
  rw [View.set_slice_whole, Rect.mem_set_unit]
  exact Iff.rfl
theorem mem_blk3 (t : Fin cfg1.N) (i : S4096x2048.Idx) :
    i ∈ ((cfg1.win 3).blk t).view.set ↔ ∀ a : Fin 2, win1_3.index t a * S256x2048.size a ≤ (i a).val ∧ (i a).val < win1_3.index t a * S256x2048.size a + S256x2048.size a := by
  show i ∈ ((View.whole main_v9_1).slice (win1_3.rect t)).set ↔ _
  rw [View.set_slice_whole, Rect.mem_set_unit]
  exact Iff.rfl

/-- The blocks tile each result: entry (b, u) is in the block of the point whose row tile is b / 256. -/
theorem cover2 (i : S4096x2048.Idx) : ∃ t : Fin cfg1.N, (cfg1.win 2).flush t = true ∧ i ∈ ((cfg1.win 2).blk t).view.set := by
  have hi0 : (i 0).val < 4096 := (i 0).isLt
  have hi1 : (i 1).val < 2048 := (i 1).isLt
  obtain ⟨t, ht, -⟩ := idx_onto ⟨(i 0).val / 256, by omega⟩
  have q0 : win1_2.index t (0 : Fin 2) = (i 0).val / 256 := congrFun ht 0
  have q1 : win1_2.index t (1 : Fin 2) = 0 := congrFun ht 1
  refine ⟨t, flush1_2 t, ?_⟩
  rw [mem_blk2]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 2048 ≤ (i 1).val ∧ (i 1).val < win1_2.index t (1 : Fin 2) * 2048 + 2048; omega
theorem cover3 (i : S4096x2048.Idx) : ∃ t : Fin cfg1.N, (cfg1.win 3).flush t = true ∧ i ∈ ((cfg1.win 3).blk t).view.set := by
  have hi0 : (i 0).val < 4096 := (i 0).isLt
  have hi1 : (i 1).val < 2048 := (i 1).isLt
  obtain ⟨t, -, ht⟩ := idx_onto ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_blk3]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 2048 ≤ (i 1).val ∧ (i 1).val < win1_3.index t (1 : Fin 2) * 2048 + 2048; omega

/-- THE RESULT ARRAYS after the region: the new hidden state and the new cell state of the arrays the region finds. -/
theorem final_hidden (c : Dev nD) : (dat1 V c).arrAt 2 cfg1.N = hiddenArr (G V c) (PC V c) :=
  (dat1 V c).arrAt_eq_of_cover 2 (hiddenArr (G V c) (PC V c)) (fun t _ => flushed_hidden V c t) cover2
theorem final_cell (c : Dev nD) : (dat1 V c).arrAt 3 cfg1.N = cellArr (G V c) (PC V c) :=
  (dat1 V c).arrAt_eq_of_cover 3 (cellArr (G V c) (PC V c)) (fun t _ => flushed_cell V c t) cover3

end Cert.KernelIdeal.CombineArray

end
-- ==== Proof.KernelValue.lean ====
/-
  The idealized kernel's result as the cell's mathematics. The run's last boundary holds, at the result buffer, the stack of
  what the second region leaves in its two result arrays; those are the new hidden and cell states of (the gates array the first
  region leaves, the second plane of the state); and the first region's gates array is the pre-activations of (the input,
  the first plane of the state, the two weight stacks), each narrowed to bf16 by a host operation that is the identity on
  the extended reals. Followed boundary by boundary through the fold of the generated frame.
-/
import proofs.«170174_j7473243095127_1_alg».proof.Proof.KernelRun
import proofs.«170174_j7473243095127_1_alg».proof.Proof.GatesArray
import proofs.«170174_j7473243095127_1_alg».proof.Proof.CombineArray
import proofs.«170174_j7473243095127_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KernelValue

open Cert.KernelIdeal Cert.KernelIdeal.Gen Cert.LstmSpec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The four argument arrays as launched. -/
abbrev a0 (c : Dev nD) : StateArr := m ((c.tc : Thread nD τ).loc main_arg0)
abbrev a1 (c : Dev nD) : RowsArr := m ((c.tc : Thread nD τ).loc main_arg1)
abbrev a2 (c : Dev nD) : WeightArr := m ((c.tc : Thread nD τ).loc main_arg2)
abbrev a3 (c : Dev nD) : WeightArr := m ((c.tc : Thread nD τ).loc main_arg3)

/-- The program's last two host operations: the two [4096, 2048] results stacked into [2, 4096, 2048]. -/
def stack (h cl : RowsArr) : StateArr :=
  concatenate S2x4096x2048 0 [⟨S1x4096x2048, broadcastInDim S1x4096x2048 ![1, 2] bcast_S4096x2048_S1x4096x2048_1_2 (h : FVec Ideal S4096x2048 .f32)⟩,
    ⟨S1x4096x2048, broadcastInDim S1x4096x2048 ![1, 2] bcast_S4096x2048_S1x4096x2048_1_2 (cl : FVec Ideal S4096x2048 .f32)⟩] concatenates_S1x4096x2048_S1x4096x2048_S2x4096x2048_d0

/-! ## What the first region finds -/

/-- A plane of the state, sliced and reshaped by the host, is that plane. -/
theorem slice0_eq (s : StateArr) :
    (shapeCast S4096x2048 (extractStridedSlice S1x4096x2048 ![0, 0, 0] s slices_S2x4096x2048_S1x4096x2048_0_0_0) shapeCasts_S1x4096x2048_S4096x2048 : RowsArr)
      = plane s 0 := by
  funext i
  obtain ⟨b, u, rfl⟩ : ∃ (b : Fin 4096) (u : Fin 2048), i = ix2 b u := ⟨i 0, i 1, eq_ix2 i⟩
  rw [shapeCast_1ab_ab_apply]
  exact extractStridedSlice_apply ![0, 0, 0] s slices_S2x4096x2048_S1x4096x2048_0_0_0 (ix3 (0 : Fin 1) b u) (ix3 (0 : Fin 2) b u) (fun a => match a with
    | ⟨0, _⟩ => by show 0 = 0 + 0; omega
    | ⟨1, _⟩ => by show b.val = 0 + b.val; omega
    | ⟨2, _⟩ => by show u.val = 0 + u.val; omega)
theorem slice1_eq (s : StateArr) :
    (shapeCast S4096x2048 (extractStridedSlice S1x4096x2048 ![1, 0, 0] s slices_S2x4096x2048_S1x4096x2048_1_0_0) shapeCasts_S1x4096x2048_S4096x2048 : RowsArr)
      = plane s 1 := by
  funext i
  obtain ⟨b, u, rfl⟩ : ∃ (b : Fin 4096) (u : Fin 2048), i = ix2 b u := ⟨i 0, i 1, eq_ix2 i⟩
  rw [shapeCast_1ab_ab_apply]
  exact extractStridedSlice_apply ![1, 0, 0] s slices_S2x4096x2048_S1x4096x2048_1_0_0 (ix3 (0 : Fin 1) b u) (ix3 (1 : Fin 2) b u) (fun a => match a with
    | ⟨0, _⟩ => by show 1 = 1 + 0; omega
    | ⟨1, _⟩ => by show b.val = 0 + b.val; omega
    | ⟨2, _⟩ => by show u.val = 0 + u.val; omega)

/-- The input rows the first region finds are the input (narrowed: the identity here). -/
theorem entry_x (c : Dev nD) : GatesArray.X (V1 m ρ) c = a1 m c := by
  show StableHlo.after hostOps0 (W0 m ρ c) (Proc.devRef .tc main_v4) = _
  after_results
  rfl
/-- The hidden-state rows it finds are the first plane of the state. -/
theorem entry_h (c : Dev nD) : GatesArray.H (V1 m ρ) c = plane (a0 m c) 0 := by
  refine Eq.trans ?_ (slice0_eq (a0 m c))
  show StableHlo.after hostOps0 (W0 m ρ c) (Proc.devRef .tc main_v5) = _
  after_results
  rfl
/-- The weight stacks it finds are the weight stacks. -/
theorem entry_w (c : Dev nD) : GatesArray.Wt (V1 m ρ) c = a2 m c := by
  show StableHlo.after hostOps0 (W0 m ρ c) (Proc.devRef .tc main_v6) = _
  after_results
  rfl
theorem entry_u (c : Dev nD) : GatesArray.Ut (V1 m ρ) c = a3 m c := by
  show StableHlo.after hostOps0 (W0 m ρ c) (Proc.devRef .tc main_v7) = _
  after_results
  rfl

/-! ## What the second region finds -/

/-- The gates array the second region finds is what the first leaves: the pre-activations of the arguments. -/
theorem entry_g (c : Dev nD) :
    CombineArray.G (V2 m ρ) c = preactArr (a1 m c) (plane (a0 m c) 0) (a2 m c) (a3 m c) := by
  refine Eq.trans (b := (dat0 (V1 m ρ) c).arrAt 4 cfg0.N) ?_ ?_
  · exact W2_arr m ρ c 4
  · rw [GatesArray.final (V1 m ρ) c, entry_x, entry_h, entry_w, entry_u]

/-- The previous cell state it finds is the second plane of the state: the first region does not touch that buffer. -/
theorem entry_pc (c : Dev nD) : CombineArray.PC (V2 m ρ) c = plane (a0 m c) 1 := by
  refine Eq.trans (b := W1 m ρ c (Proc.devRef .tc main_v3)) ?_ ?_
  · exact W2_of_ne m ρ c main_v3 (by decide)
  · refine Eq.trans ?_ (slice1_eq (a0 m c))
    show StableHlo.after hostOps0 (W0 m ρ c) (Proc.devRef .tc main_v3) = _
    after_results
    rfl

/-! ## The result -/

/-- The result buffer at the last boundary: the stack of the new hidden and cell states of the arguments. -/
theorem result_eq (c : Dev nD) :
    W4 m ρ c (Proc.devRef .tc main_v12)
      = stack (hiddenArr (preactArr (a1 m c) (plane (a0 m c) 0) (a2 m c) (a3 m c)) (plane (a0 m c) 1))
          (cellArr (preactArr (a1 m c) (plane (a0 m c) 0) (a2 m c) (a3 m c)) (plane (a0 m c) 1)) := by
  have hh : W3 m ρ c (Proc.devRef .tc main_v9_0) = hiddenArr (preactArr (a1 m c) (plane (a0 m c) 0) (a2 m c) (a3 m c)) (plane (a0 m c) 1) := by
    refine Eq.trans (b := (dat1 (V2 m ρ) c).arrAt 2 cfg1.N) (W3_arr m ρ c 2) ?_
    rw [CombineArray.final_hidden (V2 m ρ) c, entry_g, entry_pc]
  have hc : W3 m ρ c (Proc.devRef .tc main_v9_1) = cellArr (preactArr (a1 m c) (plane (a0 m c) 0) (a2 m c) (a3 m c)) (plane (a0 m c) 1) := by
    refine Eq.trans (b := (dat1 (V2 m ρ) c).arrAt 3 cfg1.N) (W3_arr m ρ c 3) ?_
    rw [CombineArray.final_cell (V2 m ρ) c, entry_g, entry_pc]
  refine Eq.trans (b := stack (W3 m ρ c (Proc.devRef .tc main_v9_0)) (W3 m ρ c (Proc.devRef .tc main_v9_1))) ?_ (by rw [hh, hc])
  show StableHlo.after hostOps2 (W3 m ρ c) (Proc.devRef .tc main_v12) = _
  after_results
  rfl

/-- The run, read: the result buffer at the stack of the new hidden and cell states of the arguments, the arguments unchanged. -/
theorem run : θ_run defs (onTc (τ := τ) (main (F := Ideal))) ⟨m, fun _ => 0, ρ⟩ (fun r => ∀ c : Dev nD,
      r.2.mem ((c.tc : Thread nD τ).loc main_v12)
        = stack (hiddenArr (preactArr (a1 m c) (plane (a0 m c) 0) (a2 m c) (a3 m c)) (plane (a0 m c) 1))
            (cellArr (preactArr (a1 m c) (plane (a0 m c) 0) (a2 m c) (a3 m c)) (plane (a0 m c) 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Run.run_named (F := Ideal) m ρ)

end Cert.KernelIdeal.KernelValue

end
-- ==== Proof.RefValue.lean ====
/-
  The reference program's stages, read back as the cell's mathematics. Its two einsums give, at (g, b, u), the weight row
  against the input row plus the weight row against the hidden-state row — the products in the other order, which does not
  matter on the extended reals —; its four gate planes are slices of that array; its logistic function is spelt
  `1 / (1 + e⁻ᵗ)` with the f32 pattern of one; and the new cell and hidden states are the same products and sums.
  So the stage that holds the new cell state is `cellArr`, and the one that holds the new hidden state `hiddenArr`, of
  the pre-activations of (input, plane 0 of the state, the two weight stacks) and plane 1 of the state.
-/
import proofs.«170174_j7473243095127_1_alg».proof.Proof.Gen.ReferenceIdeal.Read
import proofs.«170174_j7473243095127_1_alg».proof.Proof.Spec
import Idealize.ShloMosaic.Lib.ValueIdx

noncomputable section

namespace Cert.ReferenceIdeal.RefValue

open Cert.ReferenceIdeal Cert.ReferenceIdeal.Read Cert.LstmSpec
open Idealize.ShloMosaic Idealize.ShloMosaic.ValueIdx

variable (s : StateArr) (x : RowsArr) (W U : WeightArr)

/-- The reshaped first plane of the state at (b, k) is the state at (0, b, k), -/
theorem hrow_apply (b : Fin 4096) (k : Fin 2048) : val_main_v1 (F := Ideal) s (ix2 b k) = s (ix3 (0 : Fin 2) b k) := by
  rw [val_main_v1_apply, val_main_v0_apply]
  have hb := b.isLt
  have hk := k.isLt
  exact congrArg s (funext fun a => Fin.ext (by
    match a with
    | ⟨0, _⟩ => rfl
    | ⟨1, _⟩ => show (b.val * 2048 + k.val) / 2048 % 4096 = b.val; omega
    | ⟨2, _⟩ => show (b.val * 2048 + k.val) % 2048 = k.val; omega))

/-- and the reshaped second plane at (b, u) the state at (1, b, u). -/
theorem pcrow_apply (b : Fin 4096) (u : Fin 2048) : val_main_v3 (F := Ideal) s (ix2 b u) = s (ix3 (1 : Fin 2) b u) := by
  rw [val_main_v3_apply, val_main_v2_apply]
  have hb := b.isLt
  have hu := u.isLt
  exact congrArg s (funext fun a => Fin.ext (by
    match a with
    | ⟨0, _⟩ => rfl
    | ⟨1, _⟩ => show (b.val * 2048 + u.val) / 2048 % 4096 = b.val; omega
    | ⟨2, _⟩ => show (b.val * 2048 + u.val) % 2048 = u.val; omega))

/-- The sum of the two transposed einsums at (g, b, u) is the pre-activation of gate g there. -/
theorem gates_apply (g : Fin 4) (b : Fin 4096) (u : Fin 2048) :
    val_main_v8 (F := Ideal) s x W U (ix3 g b u) = preact x (plane s 0) W U g b u := by
  rw [val_main_v8_apply, val_main_v5_apply, val_main_v7_apply, val_main_v4_apply, val_main_v6_apply]
  unfold preact
  refine congrArg₂ (· + ·) (Finset.sum_congr rfl fun k _ => ?_) (Finset.sum_congr rfl fun k _ => ?_)
  · rw [mul_comm]
    exact congrArg₂ (· * ·)
      (congrArg x (funext fun a => Fin.ext (by match a with | ⟨0, _⟩ => rfl | ⟨1, _⟩ => rfl)))
      (congrArg W (funext fun a => Fin.ext (by match a with | ⟨0, _⟩ => rfl | ⟨1, _⟩ => rfl | ⟨2, _⟩ => rfl)))
  · rw [mul_comm]
    refine congrArg₂ (· * ·) ?_
      (congrArg U (funext fun a => Fin.ext (by match a with | ⟨0, _⟩ => rfl | ⟨1, _⟩ => rfl | ⟨2, _⟩ => rfl)))
    exact (congrArg (val_main_v1 (F := Ideal) s) (funext fun a => Fin.ext (by match a with | ⟨0, _⟩ => rfl | ⟨1, _⟩ => rfl))).trans
      (hrow_apply s b k)

/-- The four gate planes, reshaped to [4096, 2048], at (b, u): the summed einsums at (p, b, u). -/
theorem plane0_apply (b : Fin 4096) (u : Fin 2048) :
    val_main_v10 (F := Ideal) s x W U (ix2 b u) = val_main_v8 (F := Ideal) s x W U (ix3 (0 : Fin 4) b u) := by
  rw [val_main_v10_apply, val_main_v9_apply]
  have hb := b.isLt
  have hu := u.isLt
  exact congrArg _ (funext fun a => Fin.ext (by
    match a with
    | ⟨0, _⟩ => rfl
    | ⟨1, _⟩ => show (b.val * 2048 + u.val) / 2048 % 4096 = b.val; omega
    | ⟨2, _⟩ => show (b.val * 2048 + u.val) % 2048 = u.val; omega))
theorem plane1_apply (b : Fin 4096) (u : Fin 2048) :
    val_main_v18 (F := Ideal) s x W U (ix2 b u) = val_main_v8 (F := Ideal) s x W U (ix3 (1 : Fin 4) b u) := by
  rw [val_main_v18_apply, val_main_v17_apply]
  have hb := b.isLt
  have hu := u.isLt
  exact congrArg _ (funext fun a => Fin.ext (by
    match a with
    | ⟨0, _⟩ => rfl
    | ⟨1, _⟩ => show (b.val * 2048 + u.val) / 2048 % 4096 = b.val; omega
    | ⟨2, _⟩ => show (b.val * 2048 + u.val) % 2048 = u.val; omega))
theorem plane2_apply (b : Fin 4096) (u : Fin 2048) :
    val_main_v26 (F := Ideal) s x W U (ix2 b u) = val_main_v8 (F := Ideal) s x W U (ix3 (2 : Fin 4) b u) := by
  rw [val_main_v26_apply, val_main_v25_apply]
  have hb := b.isLt
  have hu := u.isLt
  exact congrArg _ (funext fun a => Fin.ext (by
    match a with
    | ⟨0, _⟩ => rfl
    | ⟨1, _⟩ => show (b.val * 2048 + u.val) / 2048 % 4096 = b.val; omega
    | ⟨2, _⟩ => show (b.val * 2048 + u.val) % 2048 = u.val; omega))
theorem plane3_apply (b : Fin 4096) (u : Fin 2048) :
    val_main_v34 (F := Ideal) s x W U (ix2 b u) = val_main_v8 (F := Ideal) s x W U (ix3 (3 : Fin 4) b u) := by
  rw [val_main_v34_apply, val_main_v33_apply]
  have hb := b.isLt
  have hu := u.isLt
  exact congrArg _ (funext fun a => Fin.ext (by
    match a with
    | ⟨0, _⟩ => rfl
    | ⟨1, _⟩ => show (b.val * 2048 + u.val) / 2048 % 4096 = b.val; omega
    | ⟨2, _⟩ => show (b.val * 2048 + u.val) % 2048 = u.val; omega))

/-- The three expanded logistic functions, entry by entry. -/
theorem sig0_apply (i : S4096x2048.Idx) :
    val_main_v16 (F := Ideal) s x W U i = Ideal.logistic (val_main_v10 (F := Ideal) s x W U i) := by
  rw [val_main_v16_apply, val_main_v15_apply, val_main_cst_0_apply, val_main_v14_apply, val_main_v13_apply, val_main_cst_apply,
    val_main_v12_apply, val_main_v11_apply]
  exact logistic_expanded _
theorem sig1_apply (i : S4096x2048.Idx) :
    val_main_v24 (F := Ideal) s x W U i = Ideal.logistic (val_main_v18 (F := Ideal) s x W U i) := by
  rw [val_main_v24_apply, val_main_v23_apply, val_main_cst_2_apply, val_main_v22_apply, val_main_v21_apply, val_main_cst_1_apply,
    val_main_v20_apply, val_main_v19_apply]
  exact logistic_expanded _
theorem sig2_apply (i : S4096x2048.Idx) :
    val_main_v32 (F := Ideal) s x W U i = Ideal.logistic (val_main_v26 (F := Ideal) s x W U i) := by
  rw [val_main_v32_apply, val_main_v31_apply, val_main_cst_4_apply, val_main_v30_apply, val_main_v29_apply, val_main_cst_3_apply,
    val_main_v28_apply, val_main_v27_apply]
  exact logistic_expanded _

/-- The stage holding the new cell state, at (b, u). -/
theorem cell_apply (b : Fin 4096) (u : Fin 2048) :
    val_main_v38 (F := Ideal) s x W U (ix2 b u) = cellOf (preactArr x (plane s 0) W U) (plane s 1) b u := by
  rw [val_main_v38_apply, val_main_v36_apply, val_main_v37_apply, val_main_v35_apply, sig1_apply, sig0_apply,
    plane0_apply, plane1_apply, plane3_apply, gates_apply, gates_apply, gates_apply, pcrow_apply]
  rfl

/-- The stage holding the new hidden state, at (b, u). -/
theorem hidden_apply (b : Fin 4096) (u : Fin 2048) :
    val_main_v40 (F := Ideal) s x W U (ix2 b u) = hiddenOf (preactArr x (plane s 0) W U) (plane s 1) b u := by
  rw [val_main_v40_apply, val_main_v39_apply, sig2_apply, plane2_apply, gates_apply, cell_apply]
  rfl

/-- So the two stages are the cell's two arrays. -/
theorem cell_eq : val_main_v38 (F := Ideal) s x W U = cellArr (preactArr x (plane s 0) W U) (plane s 1) := by
  funext i
  obtain ⟨b, u, rfl⟩ : ∃ (b : Fin 4096) (u : Fin 2048), i = ix2 b u := ⟨i 0, i 1, eq_ix2 i⟩
  exact cell_apply s x W U b u
theorem hidden_eq : val_main_v40 (F := Ideal) s x W U = hiddenArr (preactArr x (plane s 0) W U) (plane s 1) := by
  funext i
  obtain ⟨b, u, rfl⟩ : ∃ (b : Fin 4096) (u : Fin 2048), i = ix2 b u := ⟨i 0, i 1, eq_ix2 i⟩
  exact hidden_apply s x W U b u

end Cert.ReferenceIdeal.RefValue

end
-- ==== Proof.lean ====
/-
  One step of an LSTM cell, computed by two pipelined kernels, against the plain formula.

  The kernel program narrows the input, the hidden state (plane 0 of the [2, 4096, 2048] state) and the two weight stacks to
  bf16, computes the four gates' pre-activations in a first pallas_call (two rows-against-rows matrix products per block, added),
  combines them with the cell state (plane 1) in a second one, and stacks the new hidden and cell states. The reference
  computes the same pre-activations with two einsums, spells the logistic function as a quotient, and stacks the same two arrays.
  On the extended reals the narrowing is the identity, a matrix product is the sum of products in either operand order, and the
  quotient spelling IS the logistic function, so both programs end at
      stack (hidden, cell)   with   cell = σ(g₁)·c + σ(g₀)·tanh(g₃),   hidden = σ(g₂)·tanh(cell),
      g_p(b,u) = Σ_k x(b,k)·W(p,u,k) + Σ_k h(b,k)·U(p,u,k).
  No finiteness of the inputs is used: only commutativity of the product on the extended reals.

  The three frames: the two kernel programs' are the generated frame certificates; the reference's is its generated run with
  the result dropped. The idealization rewrote nothing, so `preserves` is trivial.
-/
import proofs.«170174_j7473243095127_1_alg».proof.Defs
import proofs.«170174_j7473243095127_1_alg».proof.Proof.Gen.Kernel
import proofs.«170174_j7473243095127_1_alg».proof.Proof.Gen.Kernel.Skeleton
import proofs.«170174_j7473243095127_1_alg».proof.Proof.Gen.Kernel.Launch
import proofs.«170174_j7473243095127_1_alg».proof.Proof.Gen.Kernel.Points
import proofs.«170174_j7473243095127_1_alg».proof.Proof.Gen.Kernel.Frame
import proofs.«170174_j7473243095127_1_alg».proof.Proof.Gen.KernelIdeal
import proofs.«170174_j7473243095127_1_alg».proof.Proof.Gen.KernelIdeal.Skeleton
import proofs.«170174_j7473243095127_1_alg».proof.Proof.Gen.KernelIdeal.Launch
import proofs.«170174_j7473243095127_1_alg».proof.Proof.Gen.KernelIdeal.Points
import proofs.«170174_j7473243095127_1_alg».proof.Proof.Gen.KernelIdeal.Frame
import proofs.«170174_j7473243095127_1_alg».proof.Proof.Gen.ReferenceIdeal
import proofs.«170174_j7473243095127_1_alg».proof.Proof.Gen.ReferenceIdeal.Run
import proofs.«170174_j7473243095127_1_alg».proof.Proof.Gen.ReferenceIdeal.Read
import proofs.«170174_j7473243095127_1_alg».proof.Proof.Gen.Pre_finite_inputs
import proofs.«170174_j7473243095127_1_alg».proof.Proof.Spec
import proofs.«170174_j7473243095127_1_alg».proof.Proof.KernelValue
import proofs.«170174_j7473243095127_1_alg».proof.Proof.RefValue
import Idealize.ShloMosaic.Adequacy
import Idealize.ShloMosaic.Init

noncomputable section

namespace Cert.Proof

open Idealize.ShloMosaic Idealize.SL.Sem Cert.LstmSpec

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the stack of the new hidden and cell states of the arguments: the kernel's run read through its two
    regions, the reference's run read stage by stage; the two last host operations are the same stack. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  rw [Cert.ReferenceIdeal.Read.val_main_v43_eq, h0, h1, h2, h3]
  unfold Cert.ReferenceIdeal.Read.val_main_v43 Cert.ReferenceIdeal.Read.val_main_v41 Cert.ReferenceIdeal.Read.val_main_v42
  rw [Cert.ReferenceIdeal.RefValue.hidden_eq, Cert.ReferenceIdeal.RefValue.cell_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
